-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x768 : Shape := ⟨2, ![32768, 768]⟩
abbrev S768x64 : Shape := ⟨2, ![768, 64]⟩
abbrev S64 : Shape := ⟨1, ![64]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S768x64 : S_.BroadcastsInDim S768x64 (![] : Fin 0 → Fin S768x64.rank)
  reducesTo_S768x64_S_d0_1 : S768x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S768x64 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S768x64 .f32 := Host.absf main_arg4
  let main_cst_6 : FVec F S_ .f32 := constant S_ .f32 0x7F800000#32
  let main_v20 : FVec F S768x64 .f32 := broadcastInDim S768x64 ![] bcast_S_S768x64 main_cst_6
  let main_v21 : IVec S768x64 1 := cmpf .olt main_v19 main_v20
  let main_c_7 : IVec S_ 1 := constantI S_ 1 1#1
  let main_v22 : IVec S_ 1 := (fun x v => Host.reduce IntOp.andi x v reducesTo_S768x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S32768x768 .f32) (main_arg1 : FVec F S32768x768 .f32) (main_arg2 : FVec F S768x64 .f32) (main_arg3 : FVec F S64 .f32) (main_arg4 : FVec F S768x64 .f32) (main_arg5 : FVec F S64 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S32768x768 .f32 := Host.absf main_arg1
  let main_cst_0 : FVec F S_ .f32 := constant S_ .f32 0x7F800000#32
  let main_v5 : FVec F S32768x768 .f32 := broadcastInDim S32768x768 ![] bcast_S_S32768x768 main_cst_0
  let main_v6 : IVec S32768x768 1 := cmpf .olt main_v4 main_v5
  let main_c_1 : IVec S_ 1 := constantI S_ 1 1#1
  let main_v7 : IVec S_ 1 := (fun x v => Host.reduce IntOp.andi x v reducesTo_S32768x768_S_d0_1 h_S_) main_v6 main_c_1
  let main_v8 : IVec S_ 1 := andi main_v3 main_v7
  let main_v9 : FVec F S768x64 .f32 := Host.absf main_arg2
  let main_cst_2 : FVec F S_ .f32 := constant S_ .f32 0x7F800000#32
  let main_v10 : FVec F S768x64 .f32 := broadcastInDim S768x64 ![] bcast_S_S768x64 main_cst_2
  let main_v11 : IVec S768x64 1 := cmpf .olt main_v9 main_v10
  let main_c_3 : IVec S_ 1 := constantI S_ 1 1#1
  let main_v12 : IVec S_ 1 := (fun x v => Host.reduce IntOp.andi x v reducesTo_S768x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S32768x768 : Shape := ⟨2, ![32768, 768]⟩
abbrev S768x64 : Shape := ⟨2, ![768, 64]⟩
abbrev S64 : Shape := ⟨1, ![64]⟩
abbrev S1x64 : Shape := ⟨2, ![1, 64]⟩
abbrev S64x768 : Shape := ⟨2, ![64, 768]⟩
abbrev S64x32768 : Shape := ⟨2, ![64, 32768]⟩
abbrev S2048x768 : Shape := ⟨2, ![2048, 768]⟩
abbrev S64x2048 : Shape := ⟨2, ![64, 2048]⟩
abbrev S2048x64 : Shape := ⟨2, ![2048, 64]⟩
abbrev S2048 : Shape := ⟨1, ![2048]⟩
abbrev S2048x1 : Shape := ⟨2, ![2048, 1]⟩
abbrev S32768x64 : Shape := ⟨2, ![32768, 64]⟩

abbrev nBuf : Space → Nat
  | .hbm => 14
  | .vmem => 12
  | .smem => 0
  | _ => 0

abbrev bufTy : (tb : Table) → Fin (tcTables nBuf tb) → BufTy
  | .hbm, ⟨0, _⟩ => ⟨S32768x768, .f32⟩
  | .hbm, ⟨1, _⟩ => ⟨S32768x768, .f32⟩
  | .hbm, ⟨2, _⟩ => ⟨S768x64, .f32⟩
  | .hbm, ⟨3, _⟩ => ⟨S64, .f32⟩
  | .hbm, ⟨4, _⟩ => ⟨S768x64, .f32⟩
  | .hbm, ⟨5, _⟩ => ⟨S64, .f32⟩
  | .hbm, ⟨6, _⟩ => ⟨S1x64, .f32⟩
  | .hbm, ⟨7, _⟩ => ⟨S1x64, .f32⟩
  | .hbm, ⟨8, _⟩ => ⟨S64x768, .f32⟩
  | .hbm, ⟨9, _⟩ => ⟨S64x768, .f32⟩
  | .hbm, ⟨10, _⟩ => ⟨S64x32768, .f32⟩
  | .hbm, ⟨11, _⟩ => ⟨S64x32768, .f32⟩
  | .hbm, ⟨12, _⟩ => ⟨S32768x64, .f32⟩
  | .hbm, ⟨13, _⟩ => ⟨S32768x64, .f32⟩
  | .local _ .vmem, ⟨0, _⟩ => ⟨S2048x768, .f32⟩
  | .local _ .vmem, ⟨1, _⟩ => ⟨S2048x768, .f32⟩
  | .local _ .vmem, ⟨2, _⟩ => ⟨S2048x768, .f32⟩
  | .local _ .vmem, ⟨3, _⟩ => ⟨S2048x768, .f32⟩
  | .local _ .vmem, ⟨4, _⟩ => ⟨S64x768, .f32⟩
  | .local _ .vmem, ⟨5, _⟩ => ⟨S1x64, .f32⟩
  | .local _ .vmem, ⟨6, _⟩ => ⟨S64x768, .f32⟩
  | .local _ .vmem, ⟨7, _⟩ => ⟨S1x64, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S64_S1x64 : S64.ShapeCasts S1x64
  transposes_S768x64_S64x768_1_0 : S768x64.Transposes [1, 0] S64x768
  inb_S2048x768_S2048x768_0_0 : ∀ a, (![0, 0] : Fin 2 → Nat) a + S2048x768.size a ≤ S2048x768.size a
  h_S2048x768 : 0 < S2048x768.numel
  inb_S64x768_S64x768_0_0 : ∀ a, (![0, 0] : Fin 2 → Nat) a + S64x768.size a ≤ S64x768.size a
  h_S64x768 : 0 < S64x768.numel
  shapeCasts_S64x768_S64x768 : S64x768.ShapeCasts S64x768
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  reduces_S2048x64_S2048 : S2048x64.Reduces [1] S2048
  shapeCasts_S2048_S2048x1 : S2048.ShapeCasts S2048x1
  broadcasts_S2048x1_S2048x64 : S2048x1.Broadcasts S2048x64
  transposes_S2048x64_p1_0_S64x2048 : S2048x64.Transposes [1, 0] S64x2048
  inb_S64x2048_S64x2048_0_0 : ∀ a, (![0, 0] : Fin 2 → Nat) a + S64x2048.size a ≤ S64x2048.size a
  h_S64x2048 : 0 < S64x2048.numel
  transposes_S64x32768_S32768x64_1_0 : S64x32768.Transposes [1, 0] S32768x64
  dot_S2048x768_S64x768_S2048x64_1_1_0_0_n_n_wf : DotDims.WF S2048x768 S64x768 S2048x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S32768x768.size a
  hwx0_0 : ∀ i : grid0.Coords, EltTy.bits .f32 = 32 ∨ (Rect.block (s := S32768x768) S2048x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x768.size a ≤ S32768x768.size a
  hwx0_1 : ∀ i : grid0.Coords, EltTy.bits .f32 = 32 ∨ (Rect.block (s := S32768x768) S2048x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x768.size a ≤ S64x768.size a
  hwx0_2 : ∀ i : grid0.Coords, EltTy.bits .f32 = 32 ∨ (Rect.block (s := S64x768) S64x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x768.size a ≤ S64x768.size a
  hwx0_4 : ∀ i : grid0.Coords, EltTy.bits .f32 = 32 ∨ (Rect.block (s := S64x768) S64x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x2048.size a ≤ S64x32768.size a
  hwx0_6 : ∀ i : grid0.Coords, EltTy.bits .f32 = 32 ∨ (Rect.block (s := S64x32768) S64x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x2048.size a ≤ S64x32768.size a
  hwx0_7 : ∀ i : grid0.Coords, EltTy.bits .f32 = 32 ∨ (Rect.block (s := S64x32768) S64x2048.size (cc0_transform_7 i) (hinb0_7 i)).WholeWords (EltTy.packing .f32)

variable [Facts₀]

def dot_S2048x768_S64x768_S2048x64_1_1_0_0_n_n : DotDims S2048x768 S64x768 S2048x64 where
  lhsContracting := [1]
  rhsContracting := [1]
  lhsNonContracting := [0]
  rhsNonContracting := [0]
  lhsBatch := []
  rhsBatch := []
  wf := dot_S2048x768_S64x768_S2048x64_1_1_0_0_n_n_wf

abbrev win0_0 : Pipeline.Window sig grid0 :=
  Pipeline.Window.ofSpec (Memref.whole main_arg0) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S64x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_0) S64x2048.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_1) S64x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32768x768 : Shape := ⟨2, ![32768, 768]⟩
abbrev S768x64 : Shape := ⟨2, ![768, 64]⟩
abbrev S64 : Shape := ⟨1, ![64]⟩
abbrev S32768x64 : Shape := ⟨2, ![32768, 64]⟩
abbrev S1x64 : Shape := ⟨2, ![1, 64]⟩
abbrev S_ : Shape := ⟨0, ![]⟩
abbrev S32768 : Shape := ⟨1, ![32768]⟩
abbrev S32768x1 : Shape := ⟨2, ![32768, 1]⟩

abbrev nBuf : Space → Nat
  | .hbm => 42
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S32768x768, .f32⟩
  | .hbm, ⟨2, _⟩ => ⟨S768x64, .f32⟩
  | .hbm, ⟨3, _⟩ => ⟨S64, .f32⟩
  | .hbm, ⟨4, _⟩ => ⟨S768x64, .f32⟩
  | .hbm, ⟨5, _⟩ => ⟨S64, .f32⟩
  | .hbm, ⟨6, _⟩ => ⟨S32768x64, .f32⟩
  | .hbm, ⟨7, _⟩ => ⟨S1x64, .f32⟩
  | .hbm, ⟨8, _⟩ => ⟨S32768x64, .f32⟩
  | .hbm, ⟨9, _⟩ => ⟨S32768x64, .f32⟩
  | .hbm, ⟨10, _⟩ => ⟨S32768x64, .f32⟩
  | .hbm, ⟨11, _⟩ => ⟨S1x64, .f32⟩
  | .hbm, ⟨12, _⟩ => ⟨S32768x64, .f32⟩
  | .hbm, ⟨13, _⟩ => ⟨S32768x64, .f32⟩
  | .hbm, ⟨14, _⟩ => ⟨S_, .f32⟩
  | .hbm, ⟨15, _⟩ => ⟨S32768, .f32⟩
  | .hbm, ⟨16, _⟩ => ⟨S_, .f32⟩
  | .hbm, ⟨17, _⟩ => ⟨S32768, .f32⟩
  | .hbm, ⟨18, _⟩ => ⟨S32768, .f32⟩
  | .hbm, ⟨19, _⟩ => ⟨S32768x1, .f32⟩
  | .hbm, ⟨20, _⟩ => ⟨S32768x64, .f32⟩
  | .hbm, ⟨21, _⟩ => ⟨S32768x64, .f32⟩
  | .hbm, ⟨22, _⟩ => ⟨S32768x64, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S32768x64, .f32⟩
  | .hbm, ⟨27, _⟩ => ⟨S32768x64, .f32⟩
  | .hbm, ⟨28, _⟩ => ⟨S_, .f32⟩
  | .hbm, ⟨29, _⟩ => ⟨S32768, .f32⟩
  | .hbm, ⟨30, _⟩ => ⟨S_, .f32⟩
  | .hbm, ⟨31, _⟩ => ⟨S32768, .f32⟩
  | .hbm, ⟨32, _⟩ => ⟨S32768, .f32⟩
  | .hbm, ⟨33, _⟩ => ⟨S32768x1, .f32⟩
  | .hbm, ⟨34, _⟩ => ⟨S32768x64, .f32⟩
  | .hbm, ⟨35, _⟩ => ⟨S32768x64, .f32⟩
  | .hbm, ⟨36, _⟩ => ⟨S32768x64, .f32⟩
  | .hbm, ⟨37, _⟩ => ⟨S_, .f32⟩
  | .hbm, ⟨38, _⟩ => ⟨S32768, .f32⟩
  | .hbm, ⟨39, _⟩ => ⟨S32768x1, .f32⟩
  | .hbm, ⟨40, _⟩ => ⟨S32768x64, .f32⟩
  | .hbm, ⟨41, _⟩ => ⟨S32768x64, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  reducesTo_S32768x64_S32768_d1 : S32768x64.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  dot_S32768x768_S768x64_S32768x64_1_0_0_1_n_n_wf : DotDims.WF S32768x768 S768x64 S32768x64 [1] [0] [0] [1] [] []

variable [Facts₀]

def dot_S32768x768_S768x64_S32768x64_1_0_0_1_n_n : DotDims S32768x768 S768x64 S32768x64 where
  lhsContracting := [1]
  rhsContracting := [0]
  lhsNonContracting := [0]
  rhsNonContracting := [1]
  lhsBatch := []
  rhsBatch := []
  wf := dot_S32768x768_S768x64_S32768x64_1_0_0_1_n_n_wf

class Facts : Prop extends Facts₀ where

variable [Facts]
-- ==== Proof.RouterSpec.lean ====
/-
  The router's specification, with no program in sight.

  One token's row of 64 logits is sent to its softmax weights: the row's maximum is taken as a fold of
  `max` that starts at the word both programs start from (the pattern of minus infinity, kept as a word and never
  evaluated), every logit is lowered by that maximum and exponentiated, and each exponential is divided by the row's sum
  of exponentials. The logits of token `r` are `sum over k of x[r, k] * w[k, e]`, plus the bias `b[e]`.
  `router x w b` is the whole [32768, 64] array of weights, index by index.

  The one law kept here: folding `max` from a starting value never ends below that value, so taking the maximum
  with the starting value once more changes nothing. It holds on all extended reals; no finiteness is used anywhere.
-/
import Idealize.ShloMosaic.PureOps.Ideal
import Idealize.ShloMosaic.PureOps.Ideal.Laws
import Idealize.ShloMosaic.Lib.ValueIdx

noncomputable section

namespace Cert.Router

open Idealize.ShloMosaic Idealize.ShloMosaic.ValueIdx

/-- The value the row maximum starts from: the f32 word of minus infinity, as both programs write it. -/
def start : EReal := Ideal.ofBits .f32 0xFF800000#32

/-- A row's maximum: `max` folded over the 64 experts from `start`. -/
def rowMax (l : Fin 64 → EReal) : EReal := (Finset.univ : Finset (Fin 64)).fold max start l

/-- The softmax weight of expert `e` in a row of logits `l`. -/
def weight (l : Fin 64 → EReal) (e : Fin 64) : EReal :=
  Ideal.div (Ideal.exp (l e - rowMax l)) (∑ e' : Fin 64, Ideal.exp (l e' - rowMax l))

/-- The fold never ends below where it starts. -/
theorem start_le_rowMax (l : Fin 64 → EReal) : start ≤ rowMax l :=
  (Finset.le_fold_max _).mpr (Or.inl le_rfl)

/-- So one more `max` with the starting value is the identity on a row maximum. -/
theorem max_start_rowMax (l : Fin 64 → EReal) : max start (rowMax l) = rowMax l :=
  max_eq_right (start_le_rowMax l)

/-- Token `r`'s logit for expert `e`: the token's 768 features against column `e` of the weights, plus the bias. -/
def logit (x : FVec Ideal ⟨2, ![32768, 768]⟩ .f32) (w : FVec Ideal ⟨2, ![768, 64]⟩ .f32) (b : FVec Ideal ⟨1, ![64]⟩ .f32)
    (r : Fin 32768) (e : Fin 64) : EReal :=
  (∑ k : Fin 768, x (ix2 r k) * w (ix2 k e)) + b (ix1 e)

/-- The router's output: at (r, e), the softmax weight of expert `e` among token `r`'s logits. -/
def router (x : FVec Ideal ⟨2, ![32768, 768]⟩ .f32) (w : FVec Ideal ⟨2, ![768, 64]⟩ .f32) (b : FVec Ideal ⟨1, ![64]⟩ .f32) :
    FVec Ideal ⟨2, ![32768, 64]⟩ .f32 :=
  fun i => weight (logit x w b (i 0)) (i 1)

theorem router_apply (x : FVec Ideal ⟨2, ![32768, 768]⟩ .f32) (w : FVec Ideal ⟨2, ![768, 64]⟩ .f32) (b : FVec Ideal ⟨1, ![64]⟩ .f32)
    (r : Fin 32768) (e : Fin 64) : router x w b (ix2 r e) = weight (logit x w b r) e := rfl

end Cert.Router

end
-- ==== Proof.RouterBlock.lean ====
/-
  One block of the kernel, read as mathematics.

  At a grid point the kernel holds 2048 tokens (a [2048, 768] block of features), the transposed weights [64, 768]
  and the bias as a [1, 64] row. Its body forms the block's logits — token p against row e of the transposed weights,
  plus the bias —, takes each row's maximum and its sum of shifted exponentials along the 64 experts, divides, and
  writes the [2048, 64] result transposed, as [64, 2048]. This module says what the written block holds at (e, p):
  the softmax weight of expert e among token p's logits.

  The matrix product is read as a sum over the 768 features by the same steps by which the reference's product is
  read; the two lane reductions are read along a row; a row statistic cast to a column and spread over the experts
  reads back the statistic.
-/
import proofs.«139375_g7129645711856_cont_9to1_m_473_15_alg».proof.Proof.Gen.KernelIdeal.Skeleton
import proofs.«139375_g7129645711856_cont_9to1_m_473_15_alg».proof.Proof.RouterSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RouterBlock

open Cert.KernelIdeal Cert.KernelIdeal.Gen Idealize.ShloMosaic Idealize.ShloMosaic.ValueIdx Cert.Router

/-! ## A vector as a column, and a column spread over a row's entries -/

section Columns
variable {α : Type}

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## The block's logits -/

theorem lhs_dot_0 (i : S2048x64.Idx) (q : dot_S2048x768_S64x768_S2048x64_1_1_0_0_n_n.contr.Idx) :
    (dot_S2048x768_S64x768_S2048x64_1_1_0_0_n_n.lhsIdx i q 0).val = (i 0).val := by
  unfold DotDims.lhsIdx
  rw [dif_neg (show ¬(0 : Fin S2048x768.rank) ∈ dot_S2048x768_S64x768_S2048x64_1_1_0_0_n_n.lhsBatch by decide), dif_pos (show (0 : Fin S2048x768.rank) ∈ dot_S2048x768_S64x768_S2048x64_1_1_0_0_n_n.lhsNonContracting by decide)]
  rfl
theorem lhs_dot_1 (i : S2048x64.Idx) (q : dot_S2048x768_S64x768_S2048x64_1_1_0_0_n_n.contr.Idx) :
    (dot_S2048x768_S64x768_S2048x64_1_1_0_0_n_n.lhsIdx i q 1).val = (q ⟨0, by decide⟩).val :=
  dot_S2048x768_S64x768_S2048x64_1_1_0_0_n_n.lhsIdx_val_of_single rfl i q
theorem rhs_dot_0 (i : S2048x64.Idx) (q : dot_S2048x768_S64x768_S2048x64_1_1_0_0_n_n.contr.Idx) :
    (dot_S2048x768_S64x768_S2048x64_1_1_0_0_n_n.rhsIdx i q 0).val = (i 1).val := by
  unfold DotDims.rhsIdx
  rw [dif_neg (show ¬(0 : Fin S64x768.rank) ∈ dot_S2048x768_S64x768_S2048x64_1_1_0_0_n_n.rhsBatch by decide), dif_pos (show (0 : Fin S64x768.rank) ∈ dot_S2048x768_S64x768_S2048x64_1_1_0_0_n_n.rhsNonContracting by decide)]
  rfl
theorem rhs_dot_1 (i : S2048x64.Idx) (q : dot_S2048x768_S64x768_S2048x64_1_1_0_0_n_n.contr.Idx) :
    (dot_S2048x768_S64x768_S2048x64_1_1_0_0_n_n.rhsIdx i q 1).val = (q ⟨0, by decide⟩).val :=
  dot_S2048x768_S64x768_S2048x64_1_1_0_0_n_n.rhsIdx_val_of_single rfl i q

/-- The product into a zero accumulator, at (p, e): token p's features against row e of the transposed weights. -/
theorem product_apply (x0 : FVec Ideal S2048x768 .f32) (wt : FVec Ideal S64x768 .f32) (p : Fin 2048) (e : Fin 64) :
    matmul dot_S2048x768_S64x768_S2048x64_1_1_0_0_n_n none x0 wt (constant (F := Ideal) S2048x64 .f32 0x00000000#32) (ix2 p e)
      = ∑ k : Fin 768, x0 (ix2 p k) * wt (ix2 e k) := by
  simp only [matmul]
  rw [Ideal.matmul_constant_zero_apply, ← Equiv.sum_comp (ValueIdx.contrEquiv1 dot_S2048x768_S64x768_S2048x64_1_1_0_0_n_n 768 rfl rfl).symm]
  refine Finset.sum_congr rfl fun k _ => ?_
  have hk := ValueIdx.contrEquiv1_symm_val dot_S2048x768_S64x768_S2048x64_1_1_0_0_n_n 768 rfl rfl k
  have el : dot_S2048x768_S64x768_S2048x64_1_1_0_0_n_n.lhsIdx (ix2 p e) ((ValueIdx.contrEquiv1 dot_S2048x768_S64x768_S2048x64_1_1_0_0_n_n 768 rfl rfl).symm k) = ix2 p k := funext fun a => Fin.ext (by
    match a with
    | ⟨0, _⟩ => exact lhs_dot_0 _ _
    | ⟨1, _⟩ => exact (lhs_dot_1 _ _).trans hk)
  have er : dot_S2048x768_S64x768_S2048x64_1_1_0_0_n_n.rhsIdx (ix2 p e) ((ValueIdx.contrEquiv1 dot_S2048x768_S64x768_S2048x64_1_1_0_0_n_n 768 rfl rfl).symm k) = ix2 e k := funext fun a => Fin.ext (by
    match a with
    | ⟨0, _⟩ => exact rhs_dot_0 _ _
    | ⟨1, _⟩ => exact (rhs_dot_1 _ _).trans hk)
  rw [el, er]

/-- The block's logits, as the body computes them. -/
def blockLogits (x0 : FVec Ideal S2048x768 .f32) (wt : FVec Ideal S64x768 .f32) (bb : FVec Ideal S1x64 .f32) : FVec Ideal S2048x64 .f32 :=
  addf (matmul dot_S2048x768_S64x768_S2048x64_1_1_0_0_n_n none x0 (shapeCast S64x768 wt shapeCasts_S64x768_S64x768) (constant S2048x64 .f32 0x00000000#32))
    (broadcastTo S2048x64 (shapeCast S1x64 bb shapeCasts_S1x64_S1x64) broadcasts_S1x64_S2048x64)

theorem blockLogits_apply (x0 : FVec Ideal S2048x768 .f32) (wt : FVec Ideal S64x768 .f32) (bb : FVec Ideal S1x64 .f32)
    (p : Fin 2048) (e : Fin 64) :
    blockLogits x0 wt bb (ix2 p e) = (∑ k : Fin 768, x0 (ix2 p k) * wt (ix2 e k)) + bb (ix2 (0 : Fin 1) e) := by
  unfold blockLogits
  rw [shapeCast_self, shapeCast_self]
  show matmul dot_S2048x768_S64x768_S2048x64_1_1_0_0_n_n none x0 wt (constant (F := Ideal) S2048x64 .f32 0x00000000#32) (ix2 p e)
      + broadcastTo S2048x64 bb broadcasts_S1x64_S2048x64 (ix2 p e) = _
  rw [product_apply, broadcastTo_1b_ab_apply]

/-! ## A row's maximum and a row's sum -/

/-- The lane maximum of a [2048, 64] array, at row p, is the row's maximum from the starting word. -/
theorem laneMax_apply (l : FVec Ideal S2048x64 .f32) (h : S2048x64.Reduces [1] S2048) (hφ : FKind.Formats .f32)
    (hacc : (0xFF800000#32 : BitVec 32) = FKind.maximumf.neutral .f32 hφ) (p : Fin 2048) :
    multiReduction .maximumf [1] S2048 l 0xFF800000#32 h hφ hacc (ix1 p) = rowMax (fun e => l (ix2 p e)) := by
  refine (Ideal.multiReduction_maximumf_single l 0xFF800000#32 h hφ hacc (ix1 p)).trans ?_
  show (Finset.univ : Finset (Fin 64)).fold max (Ideal.ofBits .f32 0xFF800000#32) (fun k => l (h.lift (ix1 p) k))
      = (Finset.univ : Finset (Fin 64)).fold max (Ideal.ofBits .f32 0xFF800000#32) (fun e => l (ix2 p e))
  refine Finset.fold_congr fun k _ => congrArg l (funext fun a => Fin.ext ?_)
  match a with
  | ⟨0, _⟩ => rfl
  | ⟨1, _⟩ => rfl

/-- The lane sum of a [2048, 64] array, at row p, is the sum of the row's 64 entries. -/
theorem laneSum_apply (v : FVec Ideal S2048x64 .f32) (h : S2048x64.Reduces [1] S2048) (hφ : FKind.Formats .f32)
    (hacc : (0x00000000#32 : BitVec 32) = FKind.add.neutral .f32 hφ) (p : Fin 2048) :
    multiReduction .add [1] S2048 v 0x00000000#32 h hφ hacc (ix1 p) = ∑ e : Fin 64, v (ix2 p e) := by
  refine (Ideal.multiReduction_add_single v 0x00000000#32 h hφ hacc (ix1 p)).trans ?_
  show ∑ k : Fin 64, v (h.lift (ix1 p) k) = ∑ e : Fin 64, v (ix2 p e)
  refine Finset.sum_congr rfl fun k _ => congrArg v (funext fun a => Fin.ext ?_)
  match a with
  | ⟨0, _⟩ => rfl
  | ⟨1, _⟩ => rfl

/-! ## The softmax of a block of logits -/

/-- A per-row statistic laid along the experts: cast to a column, spread over the row. -/
def alongRow (v : FVec Ideal S2048 .f32) : FVec Ideal S2048x64 .f32 :=
  broadcastTo S2048x64 (shapeCast S2048x1 v shapeCasts_S2048_S2048x1) broadcasts_S2048x1_S2048x64

theorem alongRow_apply (v : FVec Ideal S2048 .f32) (p : Fin 2048) (e : Fin 64) : alongRow v (ix2 p e) = v (ix1 p) :=
  (broadcastTo_a1_ab_apply _ _ p e).trans (shapeCast_a_a1_apply v _ p 0)

/-- Each row's maximum. -/
def rowMaxima (l : FVec Ideal S2048x64 .f32) : FVec Ideal S2048 .f32 :=
  multiReduction .maximumf [1] S2048 l 0xFF800000#32 reduces_S2048x64_S2048 (.inl rfl) rfl

/-- Each logit lowered by its row's maximum, exponentiated. -/
def shiftedExp (l : FVec Ideal S2048x64 .f32) : FVec Ideal S2048x64 .f32 :=
  exp (subf l (alongRow (rowMaxima l)))

/-- Each row's sum. -/
def rowSums (v : FVec Ideal S2048x64 .f32) : FVec Ideal S2048 .f32 :=
  multiReduction .add [1] S2048 v 0x00000000#32 reduces_S2048x64_S2048 (.inl rfl) rfl

/-- The block's softmax, as the body computes it. -/
def blockSoftmax (l : FVec Ideal S2048x64 .f32) : FVec Ideal S2048x64 .f32 :=
  divf (shiftedExp l) (alongRow (rowSums (shiftedExp l)))

theorem shiftedExp_apply (l : FVec Ideal S2048x64 .f32) (p : Fin 2048) (e : Fin 64) :
    shiftedExp l (ix2 p e) = Ideal.exp (l (ix2 p e) - rowMax (fun e' => l (ix2 p e'))) := by
  show Ideal.exp (l (ix2 p e) - alongRow (rowMaxima l) (ix2 p e)) = _
  rw [alongRow_apply]
  exact congrArg (fun z => Ideal.exp (l (ix2 p e) - z)) (laneMax_apply l _ _ _ p)

theorem blockSoftmax_apply (l : FVec Ideal S2048x64 .f32) (p : Fin 2048) (e : Fin 64) :
    blockSoftmax l (ix2 p e) = weight (fun e' => l (ix2 p e')) e := by
  show Ideal.div (shiftedExp l (ix2 p e)) (alongRow (rowSums (shiftedExp l)) (ix2 p e)) = _
  rw [alongRow_apply]
  refine (congrArg (Ideal.div (shiftedExp l (ix2 p e))) (laneSum_apply (shiftedExp l) _ _ _ p)).trans ?_
  simp only [shiftedExp_apply]
  rfl

/-! ## The written block -/

/-- The first output's payload is the transposed softmax of the block's logits. -/
theorem pay1_eq (x0 : FVec Ideal S2048x768 .f32) (wt : FVec Ideal S64x768 .f32) (bb : FVec Ideal S1x64 .f32) :
    k0_pay1 (F := Ideal) x0 wt bb
      = transpose S64x2048 [1, 0] (blockSoftmax (blockLogits x0 wt bb)) transposes_S2048x64_p1_0_S64x2048 := rfl

/-- The second output's payload is the same function of its own three blocks. -/
theorem pay2_eq (x0 : FVec Ideal S2048x768 .f32) (wt : FVec Ideal S64x768 .f32) (bb : FVec Ideal S1x64 .f32) :
    k0_pay2 (F := Ideal) x0 wt bb = k0_pay1 (F := Ideal) x0 wt bb := rfl

/-- What the written block holds at (e, p): expert e's weight among token p's logits. -/
theorem pay1_apply (x0 : FVec Ideal S2048x768 .f32) (wt : FVec Ideal S64x768 .f32) (bb : FVec Ideal S1x64 .f32)
    (e : Fin 64) (p : Fin 2048) :
    k0_pay1 (F := Ideal) x0 wt bb (ix2 e p)
      = weight (fun e' => (∑ k : Fin 768, x0 (ix2 p k) * wt (ix2 e' k)) + bb (ix2 (0 : Fin 1) e')) e := by
  rw [pay1_eq, transpose_ix2_apply, blockSoftmax_apply]
  simp only [blockLogits_apply]

end Cert.KernelIdeal.RouterBlock

end
-- ==== Proof.RouterKernel.lean ====
/-
  The kernel's run, read as mathematics.

  The kernel's two result arrays are laid out [64, 32768]: expert by token. Grid point t handles tokens
  2048 t … 2048 t + 2047: it reads those rows of the features, the whole transposed weights and the whole bias row,
  and writes columns 2048 t … 2048 t + 2047 of each result. The weights reach the kernel transposed by the host,
  (e, k) holding the argument's (k, e), and the bias as a one-row matrix, (0, e) holding the argument's e.
  So column r of a result array holds, at row e, expert e's softmax weight among token r's logits: the array is the
  router array with its two axes exchanged (`laidOut`). The 16 column blocks cover the array, and the host's closing
  transposition exchanges the axes back, so each result of the program is the router array of its three arguments.
-/
import proofs.«139375_g7129645711856_cont_9to1_m_473_15_alg».proof.Proof.Gen.KernelIdeal.Frame
import proofs.«139375_g7129645711856_cont_9to1_m_473_15_alg».proof.Proof.RouterBlock
import proofs.«139375_g7129645711856_cont_9to1_m_473_15_alg».proof.Proof.RouterSpec
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

namespace Cert.KernelIdeal.RouterValue

open Cert.KernelIdeal Cert.KernelIdeal.Gen Cert.KernelIdeal.RouterBlock Cert.Router
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## The router array with its axes exchanged -/

/-- Expert by token: at (e, r), expert e's weight among token r's logits. -/
def laidOut (x : FVec Ideal S32768x768 .f32) (w : FVec Ideal S768x64 .f32) (b : FVec Ideal S64 .f32) : FVec Ideal S64x32768 .f32 :=
  fun i => router x w b (ix2 (i 1) (i 0))

/-- Exchanging the axes back gives the router array. -/
theorem transpose_laidOut (x : FVec Ideal S32768x768 .f32) (w : FVec Ideal S768x64 .f32) (b : FVec Ideal S64 .f32)
    (h : S64x32768.Transposes [1, 0] S32768x64) :
    transpose S32768x64 [1, 0] (laidOut x w b) h = router x w b := funext fun i => by
  obtain ⟨r, e, rfl⟩ : ∃ (r : Fin 32768) (e : Fin 64), i = ix2 r e := ⟨i 0, i 1, eq_ix2 i⟩
  rw [transpose_ix2_apply]
  rfl

/-- A block whose rows are tokens base … base + 2047, against weights and bias that are the arguments' transposed
    and one-row forms, writes the columns base … base + 2047 of `laidOut`. -/
theorem block_entry (x0 : FVec Ideal S2048x768 .f32) (wt : FVec Ideal S64x768 .f32) (bb : FVec Ideal S1x64 .f32)
    (x : FVec Ideal S32768x768 .f32) (w : FVec Ideal S768x64 .f32) (b : FVec Ideal S64 .f32)
    (base : Nat) (hbase : base + 2048 ≤ 32768)
    (hx : ∀ (p : Fin 2048) (k : Fin 768), x0 (ix2 p k) = x (ix2 ⟨base + p.val, by have := p.isLt; omega⟩ k))
    (hw : ∀ (e : Fin 64) (k : Fin 768), wt (ix2 e k) = w (ix2 k e))
    (hb : ∀ e : Fin 64, bb (ix2 (0 : Fin 1) e) = b (ix1 e))
    (j : S64x2048.Idx) (i : S64x32768.Idx) (hi0 : (i 0).val = (j 0).val) (hi1 : (i 1).val = base + (j 1).val) :
    k0_pay1 (F := Ideal) x0 wt bb j = laidOut x w b i := by
  obtain ⟨e, p, rfl⟩ : ∃ (e : Fin 64) (p : Fin 2048), j = ix2 e p := ⟨j 0, j 1, eq_ix2 j⟩
  have hidx : (ix2 (i 1) (i 0) : S32768x64.Idx)
      = ix2 (⟨base + p.val, by have := p.isLt; omega⟩ : Fin 32768) e := funext fun a => Fin.ext (by
    match a with
    | ⟨0, _⟩ => exact hi1
    | ⟨1, _⟩ => exact hi0)
  unfold laidOut
  rw [hidx, pay1_apply, router_apply]
  unfold logit
  simp only [hx, hw, hb]

/-! ## What the region finds in the windows' arrays -/

/-- The transposed weights of the first router, as the region finds them. -/
theorem weightsA_entry (c : Dev nD) : (V m c main_v2 : S64x768.Idx → EReal)
    = transpose S64x768 [1, 0] (m ((c : Thread nD τ).loc main_arg2)) transposes_S768x64_S64x768_1_0 := by
  show StableHlo.after hostOps0 (fun b => m (c, b)) (Proc.devRef .tc main_v2) = _
  after_results

/-- The transposed weights of the second router. -/
theorem weightsS_entry (c : Dev nD) : (V m c main_v3 : S64x768.Idx → EReal)
    = transpose S64x768 [1, 0] (m ((c : Thread nD τ).loc main_arg4)) transposes_S768x64_S64x768_1_0 := by
  show StableHlo.after hostOps0 (fun b => m (c, b)) (Proc.devRef .tc main_v3) = _
  after_results

/-- The first router's bias as a one-row matrix. -/
theorem biasA_entry (c : Dev nD) : (V m c main_v0 : S1x64.Idx → EReal)
    = shapeCast S1x64 (m ((c : Thread nD τ).loc main_arg3)) shapeCasts_S64_S1x64 := by
  show StableHlo.after hostOps0 (fun b => m (c, b)) (Proc.devRef .tc main_v0) = _
  after_results
  rfl

/-- The second router's bias as a one-row matrix. -/
theorem biasS_entry (c : Dev nD) : (V m c main_v1 : S1x64.Idx → EReal)
    = shapeCast S1x64 (m ((c : Thread nD τ).loc main_arg5)) shapeCasts_S64_S1x64 := by
  show StableHlo.after hostOps0 (fun b => m (c, b)) (Proc.devRef .tc main_v1) = _
  after_results
  rfl

/-! ## Where each window's block lies at a grid point -/

theorem points : cfg0.N = 16 := N_0

/-- The feature windows step one row block per point; the weight and bias windows stay; the result windows step
    one column block per point. -/
theorem block_indices : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = t.val)
    ∧ (win0_7.index t (0 : Fin 2) = 0 ∧ win0_7.index t (1 : Fin 2) = t.val) :=
  (by decide +kernel : ∀ t : Fin grid0.N, _)

/-- Point t's block of the first features is rows 2048 t … of the argument. -/
theorem tokensA_block (c : Dev nD) (t : Fin cfg0.N) (p : Fin 2048) (k : Fin 768) :
    (iblk m c 0 t : FVec Ideal S2048x768 .f32) (ix2 p k)
      = (m ((c : Thread nD τ).loc main_arg0) : S32768x768.Idx → EReal)
          (ix2 ⟨2048 * t.val + p.val, by have := t.isLt; have := points; have := p.isLt; omega⟩ k) := by
  obtain ⟨⟨e0, e1⟩, -⟩ := block_indices t
  unfold iblk
  rw [View.read_apply]
  show V m c main_arg0 _ = _
  rw [V_main_arg0]
  congr 1
  funext a
  apply Fin.ext
  match a with
  | ⟨0, _⟩ => show win0_0.index t (0 : Fin 2) * 2048 + 1 * p.val = 2048 * t.val + p.val; rw [e0]; omega
  | ⟨1, _⟩ => show win0_0.index t (1 : Fin 2) * 768 + 1 * k.val = k.val; rw [e1]; omega

/-- Point t's block of the second features is rows 2048 t … of the argument. -/
theorem tokensS_block (c : Dev nD) (t : Fin cfg0.N) (p : Fin 2048) (k : Fin 768) :
    (iblk m c 1 t : FVec Ideal S2048x768 .f32) (ix2 p k)
      = (m ((c : Thread nD τ).loc main_arg1) : S32768x768.Idx → EReal)
          (ix2 ⟨2048 * t.val + p.val, by have := t.isLt; have := points; have := p.isLt; omega⟩ k) := by
  obtain ⟨-, ⟨e0, e1⟩, -⟩ := block_indices t
  unfold iblk
  rw [View.read_apply]
  show V m c main_arg1 _ = _
  rw [V_main_arg1]
  congr 1
  funext a
  apply Fin.ext
  match a with
  | ⟨0, _⟩ => show win0_1.index t (0 : Fin 2) * 2048 + 1 * p.val = 2048 * t.val + p.val; rw [e0]; omega
  | ⟨1, _⟩ => show win0_1.index t (1 : Fin 2) * 768 + 1 * k.val = k.val; rw [e1]; omega

/-- Every point's block of the first weights is the whole transposed matrix: (e, k) holds the argument's (k, e). -/
theorem weightsA_block (c : Dev nD) (t : Fin cfg0.N) (e : Fin 64) (k : Fin 768) :
    (iblk m c 2 t : FVec Ideal S64x768 .f32) (ix2 e k)
      = (m ((c : Thread nD τ).loc main_arg2) : S768x64.Idx → EReal) (ix2 k e) := by
  obtain ⟨-, -, ⟨e0, e1⟩, -⟩ := block_indices t
  unfold iblk
  rw [View.read_apply]
  show (V m c main_v2 : S64x768.Idx → EReal) _ = _
  rw [weightsA_entry]
  refine Eq.trans (congrArg _ (?_ : _ = ix2 e k)) (transpose_ix2_apply _ _ e k)
  funext a
  apply Fin.ext
  match a with
  | ⟨0, _⟩ => show win0_2.index t (0 : Fin 2) * 64 + 1 * e.val = e.val; rw [e0]; omega
  | ⟨1, _⟩ => show win0_2.index t (1 : Fin 2) * 768 + 1 * k.val = k.val; rw [e1]; omega

/-- The same for the second weights. -/
theorem weightsS_block (c : Dev nD) (t : Fin cfg0.N) (e : Fin 64) (k : Fin 768) :
    (iblk m c 4 t : FVec Ideal S64x768 .f32) (ix2 e k)
      = (m ((c : Thread nD τ).loc main_arg4) : S768x64.Idx → EReal) (ix2 k e) := by
  obtain ⟨-, -, -, -, ⟨e0, e1⟩, -⟩ := block_indices t
  unfold iblk
  rw [View.read_apply]
  show (V m c main_v3 : S64x768.Idx → EReal) _ = _
  rw [weightsS_entry]
  refine Eq.trans (congrArg _ (?_ : _ = ix2 e k)) (transpose_ix2_apply _ _ e k)
  funext a
  apply Fin.ext
  match a with
  | ⟨0, _⟩ => show win0_4.index t (0 : Fin 2) * 64 + 1 * e.val = e.val; rw [e0]; omega
  | ⟨1, _⟩ => show win0_4.index t (1 : Fin 2) * 768 + 1 * k.val = k.val; rw [e1]; omega

/-- Every point's block of the first bias is the whole row: (0, e) holds the argument's e. -/
theorem biasA_block (c : Dev nD) (t : Fin cfg0.N) (e : Fin 64) :
    (iblk m c 3 t : FVec Ideal S1x64 .f32) (ix2 (0 : Fin 1) e)
      = (m ((c : Thread nD τ).loc main_arg3) : S64.Idx → EReal) (ix1 e) := by
  obtain ⟨-, -, -, ⟨e0, e1⟩, -⟩ := block_indices t
  unfold iblk
  rw [View.read_apply]
  show (V m c main_v0 : S1x64.Idx → EReal) _ = _
  rw [biasA_entry]
  refine Eq.trans (congrArg _ (?_ : _ = ix2 (0 : Fin 1) e)) (shapeCast_a_1a_apply _ _ 0 e)
  funext a
  apply Fin.ext
  match a with
  | ⟨0, _⟩ => show win0_3.index t (0 : Fin 2) * 1 + 1 * 0 = 0; rw [e0]
  | ⟨1, _⟩ => show win0_3.index t (1 : Fin 2) * 64 + 1 * e.val = e.val; rw [e1]; omega

/-- The same for the second bias. -/
theorem biasS_block (c : Dev nD) (t : Fin cfg0.N) (e : Fin 64) :
    (iblk m c 5 t : FVec Ideal S1x64 .f32) (ix2 (0 : Fin 1) e)
      = (m ((c : Thread nD τ).loc main_arg5) : S64.Idx → EReal) (ix1 e) := by
  obtain ⟨-, -, -, -, -, ⟨e0, e1⟩, -⟩ := block_indices t
  unfold iblk
  rw [View.read_apply]
  show (V m c main_v1 : S1x64.Idx → EReal) _ = _
  rw [biasS_entry]
  refine Eq.trans (congrArg _ (?_ : _ = ix2 (0 : Fin 1) e)) (shapeCast_a_1a_apply _ _ 0 e)
  funext a
  apply Fin.ext
  match a with
  | ⟨0, _⟩ => show win0_5.index t (0 : Fin 2) * 1 + 1 * 0 = 0; rw [e0]
  | ⟨1, _⟩ => show win0_5.index t (1 : Fin 2) * 64 + 1 * e.val = e.val; rw [e1]; omega

/-! ## What each point writes back -/

theorem origin : (![0, 0] : Fin 2 → Nat) = fun _ => 0 := funext fun a => by fin_cases a <;> rfl

/-- Point t writes back, into the first result, its column block of `laidOut` of the first router's arguments. -/
theorem writtenA (c : Dev nD) (t : Fin cfg0.N) :
    (dats m 0 c).flushed 6 t = ((cfg0.win 6).blk t).view.read (Elt Ideal)
      (laidOut (m ((c : Thread nD τ).loc main_arg0)) (m ((c : Thread nD τ).loc main_arg2)) (m ((c : Thread nD τ).loc main_arg3))) := by
  show (cfg0.win 6).cut (grid0.coords t) ((dats m 0 c).after 6 t) = _
  rw [after0_6]
  unfold out0_6
  rw [View.canon_unit_zero origin]
  simp only [View.ld_unit_zero (S := S2048x768) origin, View.ld_unit_zero (S := S64x768) origin, View.ld_unit_zero (S := S1x64) origin]
  obtain ⟨-, -, -, -, -, -, ⟨e0, e1⟩, -⟩ := block_indices t
  funext j
  rw [View.read_apply]
  refine block_entry (iblk m c 0 t) (iblk m c 2 t) (iblk m c 3 t)
    (m ((c : Thread nD τ).loc main_arg0)) (m ((c : Thread nD τ).loc main_arg2)) (m ((c : Thread nD τ).loc main_arg3))
    (2048 * t.val) (by have := t.isLt; have := points; omega)
    (fun p k => tokensA_block m c t p k) (fun e k => weightsA_block m c t e k) (fun e => biasA_block m c t e)
    j (((cfg0.win 6).blk t).view.emb j) ?_ ?_
  · show win0_6.index t (0 : Fin 2) * 64 + 1 * (j 0).val = (j 0).val; rw [e0]; omega
  · show win0_6.index t (1 : Fin 2) * 2048 + 1 * (j 1).val = 2048 * t.val + (j 1).val; rw [e1]; omega

/-- The same for the second result and the second router's arguments. -/
theorem writtenS (c : Dev nD) (t : Fin cfg0.N) :
    (dats m 0 c).flushed 7 t = ((cfg0.win 7).blk t).view.read (Elt Ideal)
      (laidOut (m ((c : Thread nD τ).loc main_arg1)) (m ((c : Thread nD τ).loc main_arg4)) (m ((c : Thread nD τ).loc main_arg5))) := by
  show (cfg0.win 7).cut (grid0.coords t) ((dats m 0 c).after 7 t) = _
  rw [after0_7]
  unfold out0_7
  rw [View.canon_unit_zero origin]
  simp only [View.ld_unit_zero (S := S2048x768) origin, View.ld_unit_zero (S := S64x768) origin, View.ld_unit_zero (S := S1x64) origin]
  obtain ⟨-, -, -, -, -, -, -, ⟨e0, e1⟩⟩ := block_indices t
  funext j
  rw [View.read_apply, pay2_eq]
  refine block_entry (iblk m c 1 t) (iblk m c 4 t) (iblk m c 5 t)
    (m ((c : Thread nD τ).loc main_arg1)) (m ((c : Thread nD τ).loc main_arg4)) (m ((c : Thread nD τ).loc main_arg5))
    (2048 * t.val) (by have := t.isLt; have := points; omega)
    (fun p k => tokensS_block m c t p k) (fun e k => weightsS_block m c t e k) (fun e => biasS_block m c t e)
    j (((cfg0.win 7).blk t).view.emb j) ?_ ?_
  · show win0_7.index t (0 : Fin 2) * 64 + 1 * (j 0).val = (j 0).val; rw [e0]; omega
  · show win0_7.index t (1 : Fin 2) * 2048 + 1 * (j 1).val = 2048 * t.val + (j 1).val; rw [e1]; omega

/-! ## The column blocks cover the result arrays -/

theorem in_blockA (t : Fin cfg0.N) (i : S64x32768.Idx) :
    i ∈ ((cfg0.win 6).blk t).view.set ↔ ∀ a : Fin 2, win0_6.index t a * S64x2048.size a ≤ (i a).val ∧ (i a).val < win0_6.index t a * S64x2048.size a + S64x2048.size a := by
  show i ∈ ((View.whole main_v4_0).slice (win0_6.rect t)).set ↔ _
  rw [View.set_slice_whole, Rect.mem_set_unit]
  exact Iff.rfl

theorem in_blockS (t : Fin cfg0.N) (i : S64x32768.Idx) :
    i ∈ ((cfg0.win 7).blk t).view.set ↔ ∀ a : Fin 2, win0_7.index t a * S64x2048.size a ≤ (i a).val ∧ (i a).val < win0_7.index t a * S64x2048.size a + S64x2048.size a := by
  show i ∈ ((View.whole main_v4_1).slice (win0_7.rect t)).set ↔ _
  rw [View.set_slice_whole, Rect.mem_set_unit]
  exact Iff.rfl

/-- Column r lies in the block of point r / 2048. -/
theorem coveredA (i : S64x32768.Idx) : ∃ t : Fin cfg0.N, (cfg0.win 6).flush t = true ∧ i ∈ ((cfg0.win 6).blk t).view.set := by
  have h0 : (i 0).val < 64 := (i 0).isLt
  have h1 : (i 1).val < 32768 := (i 1).isLt
  let t : Fin cfg0.N := ⟨(i 1).val / 2048, by rw [points]; omega⟩
  obtain ⟨-, -, -, -, -, -, ⟨e0, e1⟩, -⟩ := block_indices t
  refine ⟨t, flush0_6 t, ?_⟩
  rw [in_blockA]
  intro a
  have ht : t.val = (i 1).val / 2048 := rfl
  match a with
  | ⟨0, _⟩ => show win0_6.index t (0 : Fin 2) * 64 ≤ (i 0).val ∧ (i 0).val < win0_6.index t (0 : Fin 2) * 64 + 64; rw [e0]; omega
  | ⟨1, _⟩ => show win0_6.index t (1 : Fin 2) * 2048 ≤ (i 1).val ∧ (i 1).val < win0_6.index t (1 : Fin 2) * 2048 + 2048; rw [e1, ht]; omega

theorem coveredS (i : S64x32768.Idx) : ∃ t : Fin cfg0.N, (cfg0.win 7).flush t = true ∧ i ∈ ((cfg0.win 7).blk t).view.set := by
  have h0 : (i 0).val < 64 := (i 0).isLt
  have h1 : (i 1).val < 32768 := (i 1).isLt
  let t : Fin cfg0.N := ⟨(i 1).val / 2048, by rw [points]; omega⟩
  obtain ⟨-, -, -, -, -, -, -, ⟨e0, e1⟩⟩ := block_indices t
  refine ⟨t, flush0_7 t, ?_⟩
  rw [in_blockS]
  intro a
  have ht : t.val = (i 1).val / 2048 := rfl
  match a with
  | ⟨0, _⟩ => show win0_7.index t (0 : Fin 2) * 64 ≤ (i 0).val ∧ (i 0).val < win0_7.index t (0 : Fin 2) * 64 + 64; rw [e0]; omega
  | ⟨1, _⟩ => show win0_7.index t (1 : Fin 2) * 2048 ≤ (i 1).val ∧ (i 1).val < win0_7.index t (1 : Fin 2) * 2048 + 2048; rw [e1, ht]; omega

/-- The first result array after the region. -/
theorem arrayA (c : Dev nD) : (dats m 0 c).arrAt 6 cfg0.N
    = laidOut (m ((c : Thread nD τ).loc main_arg0)) (m ((c : Thread nD τ).loc main_arg2)) (m ((c : Thread nD τ).loc main_arg3)) :=
  (dats m 0 c).arrAt_eq_of_cover 6 _ (fun t _ => writtenA m c t) coveredA

/-- The second result array after the region. -/
theorem arrayS (c : Dev nD) : (dats m 0 c).arrAt 7 cfg0.N
    = laidOut (m ((c : Thread nD τ).loc main_arg1)) (m ((c : Thread nD τ).loc main_arg4)) (m ((c : Thread nD τ).loc main_arg5)) :=
  (dats m 0 c).arrAt_eq_of_cover 7 _ (fun t _ => writtenS m c t) coveredS

/-! ## The program's results -/

/-- The first result: the host's closing transposition of the first array. -/
theorem resultA (c : Dev nD) : Pipeline.afterTail₀ cfgs (dats m) 0 (V0 m) [hostOps1] c main_v5
    = router (m ((c : Thread nD τ).loc main_arg0)) (m ((c : Thread nD τ).loc main_arg2)) (m ((c : Thread nD τ).loc main_arg3)) := by
  unfold Pipeline.afterTail₀
  show StableHlo.after hostOps1 _ (Proc.devRef .tc main_v5) = _
  after_results
  exact (congrArg (fun z => transpose S32768x64 [1, 0] z transposes_S64x32768_S32768x64_1_0)
    ((Pipeline.withArrays_arr spec0 launch0.win.arr_inj c _ _ 6).trans (arrayA m c))).trans (transpose_laidOut _ _ _ _)

/-- The second result: the host's closing transposition of the second array. -/
theorem resultS (c : Dev nD) : Pipeline.afterTail₀ cfgs (dats m) 0 (V0 m) [hostOps1] c main_v6
    = router (m ((c : Thread nD τ).loc main_arg1)) (m ((c : Thread nD τ).loc main_arg4)) (m ((c : Thread nD τ).loc main_arg5)) := by
  unfold Pipeline.afterTail₀
  show StableHlo.after hostOps1 _ (Proc.devRef .tc main_v6) = _
  after_results
  exact (congrArg (fun z => transpose S32768x64 [1, 0] z transposes_S64x32768_S32768x64_1_0)
    ((Pipeline.withArrays_arr spec0 launch0.win.arr_inj c _ _ 7).trans (arrayS m c))).trans (transpose_laidOut _ _ _ _)

/-- The kernel's run: it ends with each result at the router array of its three arguments, the arguments unchanged. -/
theorem run : θ_run defs (onTc (τ := τ) (main (F := Ideal))) ⟨m, fun _ => 0, ρ⟩ fun r => ∀ c : Dev nD,
      r.2.mem ((c.tc : Thread nD τ).loc main_v5) = router (m ((c.tc : Thread nD τ).loc main_arg0)) (m ((c.tc : Thread nD τ).loc main_arg2)) (m ((c.tc : Thread nD τ).loc main_arg3))
      ∧ r.2.mem ((c.tc : Thread nD τ).loc main_v6) = router (m ((c.tc : Thread nD τ).loc main_arg1)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v5 (Pipeline.mem_restRefs_of main_v5 (by decide) (by decide))).trans (resultA m c),
      ((h c).2 main_v6 (Pipeline.mem_restRefs_of main_v6 (by decide) (by decide))).trans (resultS m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.RouterValue

end
-- ==== Proof.RouterReference.lean ====
/-
  The reference, read as mathematics.

  The reference forms the logits with one product and a broadcast bias, takes the row maximum with a reduction
  that starts at minus infinity and then once more takes the maximum with minus infinity, subtracts, exponentiates,
  sums along the experts starting from zero, and divides. Read index by index through the generated stage lemmas,
  its first result is the router array of (x_m, W_a, b_a) and its second the router array of (x_s, W_s, b_s).

  Two steps are read directly: the reduction by `max` along the experts, as a fold of `max` over the row, and the
  second `max` with the starting value, which changes nothing because a fold of `max` never ends below its start.
  The sum's starting word is zero, the only word that is evaluated.
-/
import proofs.«139375_g7129645711856_cont_9to1_m_473_15_alg».proof.Proof.Gen.ReferenceIdeal.Read
import proofs.«139375_g7129645711856_cont_9to1_m_473_15_alg».proof.Proof.RouterSpec
import Idealize.ShloMosaic.Lib.ValueIdx
import Idealize.ShloMosaic.PureOps.Ideal.Laws

noncomputable section

namespace Cert.ReferenceIdeal.RouterRef

open Cert.ReferenceIdeal Cert.ReferenceIdeal.Gen Cert.ReferenceIdeal.Read Idealize.ShloMosaic Idealize.ShloMosaic.ValueIdx Cert.Router

variable (x : FVec Ideal S32768x768 .f32) (w : FVec Ideal S768x64 .f32) (b : FVec Ideal S64 .f32)

/-- The stage after the bias is added holds the logits. -/
theorem logits_apply (r : Fin 32768) (e : Fin 64) : val_main_v3 (F := Ideal) x w b (ix2 r e) = logit x w b r e := by
  rw [val_main_v3_apply, val_main_v0_apply, val_main_v2_apply, val_main_v1_apply]
  have hl : ∀ k : Fin 768, lidx_main_v0 (ix2 r e) k = ix2 r k := fun k => funext fun a => Fin.ext (by
    match a with | ⟨0, _⟩ => rfl | ⟨1, _⟩ => rfl)
  have hr : ∀ k : Fin 768, ridx_main_v0 (ix2 r e) k = ix2 k e := fun k => funext fun a => Fin.ext (by
    match a with | ⟨0, _⟩ => rfl | ⟨1, _⟩ => rfl)
  have hb : idx_main_v1 (idx_main_v2 (ix2 r e)) = ix1 e := funext fun a => Fin.ext (by
    match a with | ⟨0, _⟩ => rfl)
  simp only [hl, hr, hb]
  rfl

/-- The reduced shape relation that names the inserted coordinate. -/
theorem alongExperts : S32768x64.Reduces [1] S32768 := by decide

/-- The row maximum as the reference takes it (reduce, then `max` with the start once more) is the row's maximum. -/
theorem rowMax_apply (r : Fin 32768) : val_main_v10 (F := Ideal) x w b (ix1 r) = rowMax (logit x w b r) := by
  rw [val_main_v10_apply, val_main_v9_apply, val_main_cst_0_apply]
  unfold val_main_v8
  rw [Host.reduce_eq_fold_single FloatOps.maximumf _ _ reducesTo_S32768x64_S32768_d1 alongExperts h_S_]
  show max start ((Finset.univ : Finset (Fin 64)).fold max start
      (fun k => val_main_v3 (F := Ideal) x w b (alongExperts.lift (ix1 r) k))) = _
  have hk : ∀ k : Fin 64, val_main_v3 (F := Ideal) x w b (alongExperts.lift (ix1 r) k) = logit x w b r k := fun k => by
    rw [show alongExperts.lift (ix1 r) k = ix2 r k from funext fun a => Fin.ext (by
      match a with | ⟨0, _⟩ => rfl | ⟨1, _⟩ => rfl)]
    exact logits_apply x w b r k
  exact (congrArg (max start) (Finset.fold_congr fun k _ => hk k)).trans (max_start_rowMax (logit x w b r))

/-- The exponentials of the logits lowered by their row's maximum. -/
theorem shifted_apply (r : Fin 32768) (e : Fin 64) :
    val_main_v14 (F := Ideal) x w b (ix2 r e) = Ideal.exp (logit x w b r e - rowMax (logit x w b r)) := by
  rw [val_main_v14_apply, val_main_v13_apply, val_main_v12_apply, val_main_v11_apply]
  rw [show idx_main_v11 (idx_main_v12 (ix2 r e)) = ix1 r from funext fun a => Fin.ext (by
    match a with | ⟨0, _⟩ => rfl), logits_apply, rowMax_apply]
  rfl

/-- The row's sum of those exponentials (the sum starts from the zero word). -/
theorem rowSum_apply (r : Fin 32768) :
    val_main_v15 (F := Ideal) x w b (ix1 r) = ∑ e : Fin 64, Ideal.exp (logit x w b r e - rowMax (logit x w b r)) := by
  rw [val_main_v15_apply, val_main_cst_1_apply]
  show Ideal.ofBits .f32 0x00000000#32 + ∑ k : Fin 64, val_main_v14 (F := Ideal) x w b (idx_main_v15 (ix1 r) k) = _
  rw [Ideal.ofBits_zero_f32, zero_add]
  refine Finset.sum_congr rfl fun k _ => ?_
  rw [show idx_main_v15 (ix1 r) k = ix2 r k from funext fun a => Fin.ext (by
    match a with | ⟨0, _⟩ => rfl | ⟨1, _⟩ => rfl)]
  exact shifted_apply x w b r k

/-- The first result at (r, e) is expert e's weight among token r's logits. -/
theorem weights_apply (r : Fin 32768) (e : Fin 64) :
    val_main_v18 (F := Ideal) x w b (ix2 r e) = weight (logit x w b r) e := by
  rw [val_main_v18_apply, val_main_v17_apply, val_main_v16_apply]
  rw [show idx_main_v16 (idx_main_v17 (ix2 r e)) = ix1 r from funext fun a => Fin.ext (by
    match a with | ⟨0, _⟩ => rfl), shifted_apply, rowSum_apply]
  rfl

/-- The reference's first result is the router array of its three arguments. -/
theorem first_eq : val_main_v18 (F := Ideal) x w b = router x w b := funext fun i => by
  obtain ⟨r, e, rfl⟩ : ∃ (r : Fin 32768) (e : Fin 64), i = ix2 r e := ⟨i 0, i 1, eq_ix2 i⟩
  exact weights_apply x w b r e

/-- Its second result is the same chain of stages at the other three arguments. -/
theorem second_eq : val_main_v29 (F := Ideal) x w b = router x w b :=
  (show val_main_v29 (F := Ideal) x w b = val_main_v18 (F := Ideal) x w b from rfl).trans (first_eq x w b)

end Cert.ReferenceIdeal.RouterRef

end
-- ==== Proof.lean ====
/-
  The certificate of a fused two-softmax router against its plain reference.

  Both programs take token features x_m, x_s [32768, 768], weights W_a, W_s [768, 64] and biases b_a, b_s [64], and
  return two [32768, 64] arrays: at (r, e), expert e's softmax weight among the 64 logits of token r, the logits being
  sum over k of x[r, k] * W[k, e], plus b[e]. The reference computes this with whole-array operations. The kernel
  receives the weights transposed and the biases as one-row matrices, works on 2048 tokens per grid point, writes its
  results expert by token, and the host exchanges the axes back.

  On the extended reals the two are the same function of the arguments, with no condition on the inputs: the products
  are the same sums, the row maximum is the same fold of `max` from the same starting word (the reference's second
  `max` with that word is the identity on such a fold), the exponential and the quotient are the same functions, and
  the row sum starts from zero on both sides. The precondition is never opened.

  The frames of the kernel and of its idealization are the generated ones; the reference's frame is its generated run
  with the results dropped; the idealization rewrote nothing, so nothing is to be preserved.
-/
import proofs.«139375_g7129645711856_cont_9to1_m_473_15_alg».proof.Defs
import proofs.«139375_g7129645711856_cont_9to1_m_473_15_alg».proof.Proof.Gen.Kernel
import proofs.«139375_g7129645711856_cont_9to1_m_473_15_alg».proof.Proof.Gen.Kernel.Skeleton
import proofs.«139375_g7129645711856_cont_9to1_m_473_15_alg».proof.Proof.Gen.Kernel.Launch
import proofs.«139375_g7129645711856_cont_9to1_m_473_15_alg».proof.Proof.Gen.Kernel.Points
import proofs.«139375_g7129645711856_cont_9to1_m_473_15_alg».proof.Proof.Gen.Kernel.Frame
import proofs.«139375_g7129645711856_cont_9to1_m_473_15_alg».proof.Proof.Gen.KernelIdeal
import proofs.«139375_g7129645711856_cont_9to1_m_473_15_alg».proof.Proof.Gen.KernelIdeal.Skeleton
import proofs.«139375_g7129645711856_cont_9to1_m_473_15_alg».proof.Proof.Gen.KernelIdeal.Launch
import proofs.«139375_g7129645711856_cont_9to1_m_473_15_alg».proof.Proof.Gen.KernelIdeal.Points
import proofs.«139375_g7129645711856_cont_9to1_m_473_15_alg».proof.Proof.Gen.KernelIdeal.Frame
import proofs.«139375_g7129645711856_cont_9to1_m_473_15_alg».proof.Proof.Gen.ReferenceIdeal
import proofs.«139375_g7129645711856_cont_9to1_m_473_15_alg».proof.Proof.Gen.Pre_finite_inputs
import proofs.«139375_g7129645711856_cont_9to1_m_473_15_alg».proof.Proof.Gen.ReferenceIdeal.Run
import proofs.«139375_g7129645711856_cont_9to1_m_473_15_alg».proof.Proof.Gen.ReferenceIdeal.Read
import proofs.«139375_g7129645711856_cont_9to1_m_473_15_alg».proof.Proof.RouterSpec
import proofs.«139375_g7129645711856_cont_9to1_m_473_15_alg».proof.Proof.RouterBlock
import proofs.«139375_g7129645711856_cont_9to1_m_473_15_alg».proof.Proof.RouterKernel
import proofs.«139375_g7129645711856_cont_9to1_m_473_15_alg».proof.Proof.RouterReference
import Idealize.ShloMosaic.Adequacy
import Idealize.ShloMosaic.Init

noncomputable section

namespace Cert.Proof

open Idealize.ShloMosaic Idealize.ShloMosaic.TcCoe Idealize.SL.Sem Cert.Router

theorem frame_kernel : Cert.frame_Kernel := fun m ρ _ => Cert.Kernel.Gen.frame m ρ

theorem frame_kernelIdeal : Cert.frame_KernelIdeal := fun m ρ _ => Cert.KernelIdeal.Gen.frame m ρ

/-- The reference's run keeps its arguments; its two results are dropped here. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the first result at the router array of (x_m, W_a, b_a) and the second at that of
    (x_s, W_s, b_s): the kernel by its run read through its blocks, the reference by its run read stage by stage,
    from arguments that agree. -/
theorem algebraic : Cert.algebraic_KernelIdeal_ReferenceIdeal := by
  intro m ρ m' ρ' _ hagree
  refine ⟨fun c => router (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)),
      fun c => router (m ((c.tc : Thread Cert.KernelIdeal.nD Cert.KernelIdeal.τ).loc Cert.KernelIdeal.main_arg1))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)),
      Cert.KernelIdeal.RouterValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v18_eq, Cert.ReferenceIdeal.RouterRef.first_eq,
      (hagree c).1, (hagree c).2.2.1, (hagree c).2.2.2.1]
  · rw [Cert.ReferenceIdeal.Read.val_main_v29_eq, Cert.ReferenceIdeal.RouterRef.second_eq,
      (hagree c).2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
